-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel

variable [Facts]

def fn {F : FTy → Type} [FloatOps F] (main_arg0 : FVec F S4096x4096 .f32) (main_arg1 : FVec F S4096x4096 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  main_v8
-- ==== Kernel.lean ====
abbrev S4096x4096 : Shape := ⟨2, ![4096, 4096]⟩
abbrev S4096x1 : Shape := ⟨2, ![4096, 1]⟩
abbrev S1024x4096 : Shape := ⟨2, ![1024, 4096]⟩
abbrev S1024x1 : Shape := ⟨2, ![1024, 1]⟩
abbrev S1024x1024 : Shape := ⟨2, ![1024, 1024]⟩
abbrev S1024 : Shape := ⟨1, ![1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .bf16⟩
  | .hbm, ⟨3, _⟩ => ⟨S4096x4096, .bf16⟩
  | .hbm, ⟨4, _⟩ => ⟨S4096x1, .f32⟩
  | .local _ .vmem, ⟨0, _⟩ => ⟨S1024x4096, .bf16⟩
  | .local _ .vmem, ⟨1, _⟩ => ⟨S1024x4096, .bf16⟩
  | .local _ .vmem, ⟨2, _⟩ => ⟨S1024x4096, .bf16⟩
  | .local _ .vmem, ⟨3, _⟩ => ⟨S1024x4096, .bf16⟩
  | .local _ .vmem, ⟨4, _⟩ => ⟨S1024x1, .f32⟩
  | .local _ .vmem, ⟨5, _⟩ => ⟨S1024x1, .f32⟩
  | .local _ .vmem, ⟨6, _⟩ => ⟨S1024x1, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v15 : BitVec 1 := Scalar.cmpi .eq arg1 c3_i32
  let v16 : BitVec 32 := Scalar.extui v15
  let c0_i32_9 : BitVec 32 := 0#32
  let v17 : BitVec 1 := Scalar.cmpi .ne v16 c0_i32_9
  v17

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  bitsLt_bf16_f32 : FTy.bits .bf16 < FTy.bits .f32
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  reduces_S1024x1024_S1024 : S1024x1024.Reduces [1] S1024
  shapeCasts_S1024_S1024x1 : S1024.ShapeCasts S1024x1
  dot_S1024x4096_S1024x4096_S1024x1024_1_1_0_0_n_n_wf : DotDims.WF S1024x4096 S1024x4096 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x4096.size a ≤ S4096x4096.size a
  hwx0_0 : ∀ i : grid0.Coords, EltTy.bits .bf16 = 32 ∨ (Rect.block (s := S4096x4096) S1024x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x4096.size a ≤ S4096x4096.size a
  hwx0_1 : ∀ i : grid0.Coords, EltTy.bits .bf16 = 32 ∨ (Rect.block (s := S4096x4096) S1024x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S4096x1.size a
  hwx0_2 : ∀ i : grid0.Coords, EltTy.bits .f32 = 32 ∨ (Rect.block (s := S4096x1) S1024x1.size (cc0_transform_2 i) (hinb0_2 i)).WholeWords (EltTy.packing .f32)

variable [Facts₀]

def dot_S1024x4096_S1024x4096_S1024x1024_1_1_0_0_n_n : DotDims S1024x4096 S1024x4096 S1024x1024 where
  lhsContracting := [1]
  rhsContracting := [1]
  lhsNonContracting := [0]
  rhsNonContracting := [0]
  lhsBatch := []
  rhsBatch := []
  wf := dot_S1024x4096_S1024x4096_S1024x1024_1_1_0_0_n_n_wf

abbrev win0_0 : Pipeline.Window sig grid0 :=
  Pipeline.Window.ofSpec (Memref.whole main_v0) S1024x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S4096x4096 : Shape := ⟨2, ![4096, 4096]⟩
abbrev S_ : Shape := ⟨0, ![]⟩
abbrev S4096 : Shape := ⟨1, ![4096]⟩
abbrev S4096x1 : Shape := ⟨2, ![4096, 1]⟩

abbrev nBuf : Space → Nat
  | .hbm => 9
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]

class Facts₀ : Prop where
  reducesTo_S4096x4096_S4096_d1 : S4096x4096.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  dot_S4096x4096_S4096x4096_S4096x4096_1_1_0_0_n_n_wf : DotDims.WF S4096x4096 S4096x4096 S4096x4096 [1] [1] [0] [0] [] []

variable [Facts₀]

def dot_S4096x4096_S4096x4096_S4096x4096_1_1_0_0_n_n : DotDims S4096x4096 S4096x4096 S4096x4096 where
  lhsContracting := [1]
  rhsContracting := [1]
  lhsNonContracting := [0]
  rhsNonContracting := [0]
  lhsBatch := []
  rhsBatch := []
  wf := dot_S4096x4096_S4096x4096_S4096x4096_1_1_0_0_n_n_wf

class Facts : Prop extends Facts₀ where

variable [Facts]
-- ==== Proof.Pieces.lean ====
/-
  What one run of the kernel body leaves behind, as values.

  The body keeps a running column of row sums in a scratch block of shape [1024, 1]. At a grid point it
  (first point of a row of the grid only) clears that column, then adds to it the row sums of the
  1024 x 1024 product of its two input blocks, and (last point of a row of the grid only) writes the
  column, times the scale, to the output block. The three control cases of the body are:
    A  clear, then add            : the column becomes  (cleared column) + (row sums)
    B  add                        : the column becomes  (column before)  + (row sums)
    C  add, then write the output : the column as in B; the output block is  scale * (new column)
  Each lemma below reads the stores one case performs back as the pure term they store: the body's
  arithmetic `k0_pay2` (add the row sums of the product to a column), `k0_pay1` (the cleared column)
  and `k0_pay3` (scale a column). A load that follows a store of the whole block reads what was stored.
-/
import proofs.«103372_j3556232922104_1_alg».proof.Proof.Gen.KernelIdeal.Frame
import Idealize.ShloMosaic.Lib.Pipeline.Value
import Idealize.ShloMosaic.Lib.Tactic

noncomputable section

namespace Cert.KernelIdeal.Tiles

open Cert.KernelIdeal Cert.KernelIdeal.Gen Idealize.ShloMosaic Idealize.ShloMosaic.TcCoe Idealize.SL.Sem
open Idealize.ShloMosaic.Tactic

variable {F : FTy → Type} [FloatOps F]

/-- The zero offsets of a whole-block access, spelt as a constant function. -/
theorem hz : (![0, 0] : Fin 2 → Nat) = fun _ => 0 := funext fun a => by fin_cases a <;> rfl

/-- Case A: the scratch column is cleared, read back, and the row sums of the product are added to it. -/
theorem scratch_A (c : Dev nD) (i : grid0.Coords) (a2 : Memref sig .tc .vmem S1024x4096 .bf16) (h2 : a2.IsWhole)
    (a3 : Memref sig .tc .vmem S1024x4096 .bf16) (h3 : a3.IsWhole) (a4 : Memref sig .tc .vmem S1024x1 .f32) (h4 : a4.IsWhole)
    (a5 : Memref sig .tc .vmem S1024x1 .f32) (h5 : a5.IsWhole) (hc0 : cond0_0 i) (hc1 : ¬cond0_1 i)
    (x0 x1 : Vec F S1024x4096 .bf16) :
    sout0_A_0 c i a2 h2 a3 h3 a4 h4 a5 h5 hc0 hc1 x0 x1 = k0_pay2 x0 x1 (k0_pay1 (F := F)) := by
  unfold sout0_A_0
  rw [View.read_writes_eq_canon _ _ _ (scover0_A_0 c i a2 h2 a3 h3 a4 h4 a5 h5 hc0 hc1 x0 x1)]
  unfold kernelRun0_A
  dsimp only
  sl_unfold_words
  rw [View.canon_cons_unit_zero (S := S1024x1) hz, View.readCov_unit_zero (S := S1024x1) _ hz]
  simp only [View.readAt_eq_ld, h2.read_unread, h3.read_unread, View.ld_unit_zero (S := S1024x4096) hz]

/-- Case B: the row sums of the product are added to the column the point before left. -/
theorem scratch_B (c : Dev nD) (i : grid0.Coords) (a2 : Memref sig .tc .vmem S1024x4096 .bf16) (h2 : a2.IsWhole)
    (a3 : Memref sig .tc .vmem S1024x4096 .bf16) (h3 : a3.IsWhole) (a4 : Memref sig .tc .vmem S1024x1 .f32) (h4 : a4.IsWhole)
    (a5 : Memref sig .tc .vmem S1024x1 .f32) (h5 : a5.IsWhole) (hc0 : ¬cond0_0 i) (hc1 : ¬cond0_1 i)
    (x0 x1 : Vec F S1024x4096 .bf16) (xs0 : Vec F S1024x1 .f32) :
    sout0_B_0 c i a2 h2 a3 h3 a4 h4 a5 h5 hc0 hc1 x0 x1 xs0 = k0_pay2 x0 x1 xs0 := by
  unfold sout0_B_0
  rw [View.read_writes_eq_canon _ _ _ (scover0_B_0 c i a2 h2 a3 h3 a4 h4 a5 h5 hc0 hc1 x0 x1 xs0)]
  unfold kernelRun0_B
  dsimp only
  sl_unfold_words
  rw [View.canon_unit_zero hz]
  simp only [View.readAt_eq_ld, h2.read_unread, h3.read_unread, h5.read_unread,
    View.ld_unit_zero (S := S1024x4096) hz, View.ld_unit_zero (S := S1024x1) hz]

/-- Case C leaves the same column as case B … -/
theorem scratch_C (c : Dev nD) (i : grid0.Coords) (a2 : Memref sig .tc .vmem S1024x4096 .bf16) (h2 : a2.IsWhole)
    (a3 : Memref sig .tc .vmem S1024x4096 .bf16) (h3 : a3.IsWhole) (a4 : Memref sig .tc .vmem S1024x1 .f32) (h4 : a4.IsWhole)
    (a5 : Memref sig .tc .vmem S1024x1 .f32) (h5 : a5.IsWhole) (hc0 : ¬cond0_0 i) (hc1 : cond0_1 i)
    (x0 x1 : Vec F S1024x4096 .bf16) (xs0 : Vec F S1024x1 .f32) :
    sout0_C_0 c i a2 h2 a3 h3 a4 h4 a5 h5 hc0 hc1 x0 x1 xs0 = k0_pay2 x0 x1 xs0 := by
  unfold sout0_C_0
  rw [View.read_writes_eq_canon _ _ _ (scover0_C_0 c i a2 h2 a3 h3 a4 h4 a5 h5 hc0 hc1 x0 x1 xs0)]
  unfold kernelRun0_C
  dsimp only
  sl_unfold_words
  rw [View.canon_unit_zero hz]
  simp only [View.readAt_eq_ld, h2.read_unread, h3.read_unread, h5.read_unread,
    View.ld_unit_zero (S := S1024x4096) hz, View.ld_unit_zero (S := S1024x1) hz]

/-- … and writes that column, scaled, to the output block. -/
theorem out_C (c : Dev nD) (i : grid0.Coords) (a2 : Memref sig .tc .vmem S1024x4096 .bf16) (h2 : a2.IsWhole)
    (a3 : Memref sig .tc .vmem S1024x4096 .bf16) (h3 : a3.IsWhole) (a4 : Memref sig .tc .vmem S1024x1 .f32) (h4 : a4.IsWhole)
    (a5 : Memref sig .tc .vmem S1024x1 .f32) (h5 : a5.IsWhole) (hc0 : ¬cond0_0 i) (hc1 : cond0_1 i)
    (x0 x1 : Vec F S1024x4096 .bf16) (xs0 : Vec F S1024x1 .f32) :
    out0_C_2 c i a2 h2 a3 h3 a4 h4 a5 h5 hc0 hc1 x0 x1 xs0 = k0_pay3 (k0_pay2 x0 x1 xs0) := by
  unfold out0_C_2
  rw [View.read_writes_eq_canon _ _ _ (cover0_C_2 c i a2 h2 a3 h3 a4 h4 a5 h5 hc0 hc1 x0 x1 xs0)]
  unfold kernelRun0_C
  dsimp only
  sl_unfold_words
  rw [View.canon_unit_zero hz, View.readCov_unit_zero (S := S1024x1) _ hz]
  simp only [View.readAt_eq_ld, h2.read_unread, h3.read_unread, h5.read_unread,
    View.ld_unit_zero (S := S1024x4096) hz, View.ld_unit_zero (S := S1024x1) hz]

end Cert.KernelIdeal.Tiles

end
-- ==== Proof.Payloads.lean ====
/-
  The body's arithmetic read at an index, over the extended reals.

  With `x` a [1024, 4096] block of the first operand and `w` a [1024, 4096] block of the second, the
  body forms the 1024 x 1024 product  y[p, j] = sum_k x[p, k] * w[j, k]  (both operands are contracted
  over their second axis), sums each row of it,  r[p] = sum_j y[p, j],  views that vector as a column
  [1024, 1] and adds it to the running column. So at row `p` the new column holds
      acc[p] + sum_j sum_k x[p, k] * w[j, k].
  The cleared column is zero everywhere, and the final scaling multiplies an entry by the scale.
-/
import proofs.«103372_j3556232922104_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Tiles

open Cert.KernelIdeal Cert.KernelIdeal.Gen Idealize.ShloMosaic Idealize.ShloMosaic.ValueIdx

/-! ### The operand indices of the product: rows of both operands, one contracted column -/

theorem lhs_row (i : S1024x1024.Idx) (q : dot_S1024x4096_S1024x4096_S1024x1024_1_1_0_0_n_n.contr.Idx) :
    (dot_S1024x4096_S1024x4096_S1024x1024_1_1_0_0_n_n.lhsIdx i q 0).val = (i 0).val := by
  unfold DotDims.lhsIdx
  rw [dif_neg (show ¬(0 : Fin S1024x4096.rank) ∈ dot_S1024x4096_S1024x4096_S1024x1024_1_1_0_0_n_n.lhsBatch by decide), dif_pos (show (0 : Fin S1024x4096.rank) ∈ dot_S1024x4096_S1024x4096_S1024x1024_1_1_0_0_n_n.lhsNonContracting by decide)]
  rfl
theorem lhs_col (i : S1024x1024.Idx) (q : dot_S1024x4096_S1024x4096_S1024x1024_1_1_0_0_n_n.contr.Idx) :
    (dot_S1024x4096_S1024x4096_S1024x1024_1_1_0_0_n_n.lhsIdx i q 1).val = (q ⟨0, by decide⟩).val :=
  dot_S1024x4096_S1024x4096_S1024x1024_1_1_0_0_n_n.lhsIdx_val_of_single rfl i q
theorem rhs_row (i : S1024x1024.Idx) (q : dot_S1024x4096_S1024x4096_S1024x1024_1_1_0_0_n_n.contr.Idx) :
    (dot_S1024x4096_S1024x4096_S1024x1024_1_1_0_0_n_n.rhsIdx i q 0).val = (i 1).val := by
  unfold DotDims.rhsIdx
  rw [dif_neg (show ¬(0 : Fin S1024x4096.rank) ∈ dot_S1024x4096_S1024x4096_S1024x1024_1_1_0_0_n_n.rhsBatch by decide), dif_pos (show (0 : Fin S1024x4096.rank) ∈ dot_S1024x4096_S1024x4096_S1024x1024_1_1_0_0_n_n.rhsNonContracting by decide)]
  rfl
theorem rhs_col (i : S1024x1024.Idx) (q : dot_S1024x4096_S1024x4096_S1024x1024_1_1_0_0_n_n.contr.Idx) :
    (dot_S1024x4096_S1024x4096_S1024x1024_1_1_0_0_n_n.rhsIdx i q 1).val = (q ⟨0, by decide⟩).val :=
  dot_S1024x4096_S1024x4096_S1024x1024_1_1_0_0_n_n.rhsIdx_val_of_single rfl i q

/-- The product of the two blocks, into a zero accumulator, at (p, j): row p of the first against row j of the second. -/
theorem product_apply (x w : FVec Ideal S1024x4096 .bf16) (p j : Fin 1024) :
    matmul dot_S1024x4096_S1024x4096_S1024x1024_1_1_0_0_n_n none x w (constant S1024x1024 .f32 0x00000000#32) (ix2 p j)
      = ∑ k : Fin 4096, x (ix2 p k) * w (ix2 j k) := by
  simp only [matmul]
  rw [Ideal.matmul_constant_zero_apply, ← Equiv.sum_comp (ValueIdx.contrEquiv1 dot_S1024x4096_S1024x4096_S1024x1024_1_1_0_0_n_n 4096 rfl rfl).symm]
  refine Finset.sum_congr rfl fun k _ => ?_
  have hk := ValueIdx.contrEquiv1_symm_val dot_S1024x4096_S1024x4096_S1024x1024_1_1_0_0_n_n 4096 rfl rfl k
  have el : dot_S1024x4096_S1024x4096_S1024x1024_1_1_0_0_n_n.lhsIdx (ix2 p j) ((ValueIdx.contrEquiv1 dot_S1024x4096_S1024x4096_S1024x1024_1_1_0_0_n_n 4096 rfl rfl).symm k) = ix2 p k := funext fun a => Fin.ext (by
    match a with
    | ⟨0, _⟩ => exact lhs_row _ _
    | ⟨1, _⟩ => exact (lhs_col _ _).trans hk)
  have er : dot_S1024x4096_S1024x4096_S1024x1024_1_1_0_0_n_n.rhsIdx (ix2 p j) ((ValueIdx.contrEquiv1 dot_S1024x4096_S1024x4096_S1024x1024_1_1_0_0_n_n 4096 rfl rfl).symm k) = ix2 j k := funext fun a => Fin.ext (by
    match a with
    | ⟨0, _⟩ => exact rhs_row _ _
    | ⟨1, _⟩ => exact (rhs_col _ _).trans hk)
  rw [el, er]

/-- A row sum of a [1024, 1024] value at row p: the sum over its 1024 columns. -/
theorem rowSum_apply (y : FVec Ideal S1024x1024 .f32) (h : S1024x1024.Reduces [1] S1024) (hφ : FKind.Formats .f32)
    (hacc : (0x00000000#32 : BitVec 32) = 0x00000000#32) (p : Fin 1024) :
    multiReduction (F := Ideal) .add [1] S1024 y 0x00000000#32 h hφ hacc (ix1 p) = ∑ j : Fin 1024, y (ix2 p j) := by
  refine (Ideal.multiReduction_add_single y 0x00000000#32 h hφ hacc (ix1 p)).trans ?_
  refine Finset.sum_congr rfl fun j _ => congrArg y (funext fun a => Fin.ext ?_)
  match a with
  | ⟨0, _⟩ => rfl
  | ⟨1, _⟩ => rfl

/-- A vector of 1024 entries viewed as a column [1024, 1]: entry (p, 0) is entry p. -/
theorem column_apply {α : Type} (v : S1024.Idx → α) (h : S1024.ShapeCasts S1024x1) (p : Fin 1024) (z : Fin 1) :
    shapeCast S1024x1 v h (ix2 p z) = v (ix1 p) := by
  refine shapeCast_apply v h (ix2 p z) (ix1 p) ?_
  rw [Shape.rowMajor_val_one, Shape.rowMajor_val_two]
  show p.val = p.val * 1 + z.val
  have := z.isLt
  omega

/-- The accumulation step at row p: the column before plus the row sum of the blocks' product. -/
theorem step_apply (x w : Vec Ideal S1024x4096 .bf16) (acc : Vec Ideal S1024x1 .f32) (p : Fin 1024) (z : Fin 1) :
    k0_pay2 (F := Ideal) x w acc (ix2 p z)
      = acc (ix2 p z) + ∑ j : Fin 1024, ∑ k : Fin 4096, x (ix2 p k) * w (ix2 j k) := by
  unfold k0_pay2
  simp only [shapeCast_self]
  refine (addf_apply _ _ _).trans (congrArg (acc (ix2 p z) + ·) ?_)
  refine (column_apply _ _ p z).trans ?_
  refine (rowSum_apply _ _ _ _ p).trans ?_
  exact Finset.sum_congr rfl fun j _ => product_apply x w p j

/-- The cleared column is zero at every entry. -/
theorem cleared_apply (i : S1024x1.Idx) : k0_pay1 (F := Ideal) i = 0 := by
  unfold k0_pay1
  simp only [shapeCast_self]
  exact Ideal.ofBits_zero_f32

/-- The final scaling at an entry: the entry times the scale (the same constant word the reference multiplies by). -/
theorem scaled_apply (v : Vec Ideal S1024x1 .f32) (i : S1024x1.Idx) :
    k0_pay3 (F := Ideal) v i = v i * Ideal.ofBits .f32 0x3F800000#32 := rfl

end Cert.KernelIdeal.Tiles

end
-- ==== Proof.TileSum.lean ====
/-
  A sum over 4096 consecutive terms is the sum of four runs of 1024 terms each: the re-grouping that
  joins a row sum taken tile by tile (four tiles of 1024 columns, accumulated one after the other) with
  the row sum taken at once. Only commutativity and associativity of addition are used, so the
  statements hold in any additive commutative monoid — in particular on the extended reals, where no
  finiteness is needed.
-/
import Mathlib.Algebra.BigOperators.Fin
import Mathlib.Logic.Equiv.Fin.Basic

namespace Cert.TileSum

open Finset

/-- The column `1024 * h + j` of tile `h`, as an index below 4096. -/
def col (h : Fin 4) (j : Fin 1024) : Fin 4096 := ⟨1024 * h.val + j.val, by omega⟩

theorem col_val (h : Fin 4) (j : Fin 1024) : (col h j).val = 1024 * h.val + j.val := rfl

/-- A sum over all 4096 columns, cut into the four tiles of 1024 columns. -/
theorem sum_tiles {β : Type*} [AddCommMonoid β] (f : Fin 4096 → β) :
    ∑ n : Fin 4096, f n = ∑ h : Fin 4, ∑ j : Fin 1024, f (col h j) := by
  rw [← Fintype.sum_prod_type' (f := fun h j => f (col h j))]
  refine (Fintype.sum_equiv (finProdFinEquiv (m := 4) (n := 1024)) _ _ (fun p => ?_)).symm
  refine congrArg f (Fin.ext ?_)
  show 1024 * p.1.val + p.2.val = p.2.val + 1024 * p.1.val
  omega

/-- The same with the four tiles numbered by naturals below 4, as an accumulation over consecutive
    steps numbers them: if step `s` adds tile `s`'s partial sum, the four steps add the whole sum. -/
theorem sum_range_tiles {β : Type*} [AddCommMonoid β] (f : Fin 4096 → β) (g : ℕ → β)
    (hg : ∀ s : Fin 4, g s.val = ∑ j : Fin 1024, f (col s j)) :
    ∑ s ∈ range 4, g s = ∑ n : Fin 4096, f n := by
  rw [Finset.sum_range, sum_tiles]
  exact Finset.sum_congr rfl fun s _ => hg s

end Cert.TileSum
-- ==== Proof.RowDots.lean ====
/-
  The function both programs compute. With `x` and `w` two [4096, 4096] arrays of extended reals and
  `scale` an extended real, the result is the column [4096, 1] whose entry at row `b` is

      ( sum over the 4096 rows n of w  of  ( sum over k of x[b, k] * w[n, k] ) ) * scale,

  the row sums of the product x * w^T, scaled.
-/
import Idealize.ShloMosaic.PureOps.Ideal
import Idealize.ShloMosaic.Lib.ValueIdx

noncomputable section

namespace Cert.RowDots

open Idealize.ShloMosaic Idealize.ShloMosaic.ValueIdx

/-- Row `b` of `x` against row `n` of `w`. -/
def dot (x w : (⟨2, ![4096, 4096]⟩ : Shape).Idx → EReal) (b n : Fin 4096) : EReal :=
  ∑ k : Fin 4096, x (ix2 b k) * w (ix2 n k)

/-- The scaled row sums of x * w^T, as a column. -/
def G (scale : EReal) (x w : (⟨2, ![4096, 4096]⟩ : Shape).Idx → EReal) : (⟨2, ![4096, 1]⟩ : Shape).Idx → EReal :=
  fun i => (∑ n : Fin 4096, dot x w (i 0) n) * scale

end Cert.RowDots

end
-- ==== Proof.KernelValue.lean ====
/-
  The kernel's result array, at the extended reals, is the scaled row sums of x * w^T.

  The grid is 4 x 4: point t = 4 q + s works on row tile q of `x` (rows 1024 q ... 1024 q + 1023) and row
  tile s of `w`. Within a row of the grid (s = 0, 1, 2, 3) the scratch column is cleared at s = 0 and at
  every s gains, at its row p, the sum over the tile's 1024 rows j of `w` of the dot product of row
  1024 q + p of `x` with row 1024 s + j of `w`. After s = 3 it therefore holds, at row p,
      0 + sum_{s < 4} sum_{j < 1024} dot(1024 q + p, 1024 s + j)  =  sum_{n < 4096} dot(1024 q + p, n),
  and that column, times the scale, is what point 4 q + 3 writes to rows 1024 q ... 1024 q + 1023 of
  the result. The four writing points cover the 4096 rows.
-/
import proofs.«103372_j3556232922104_1_alg».proof.Proof.Gen.KernelIdeal.Value
import proofs.«103372_j3556232922104_1_alg».proof.Proof.Pieces
import proofs.«103372_j3556232922104_1_alg».proof.Proof.Payloads
import proofs.«103372_j3556232922104_1_alg».proof.Proof.TileSum
import proofs.«103372_j3556232922104_1_alg».proof.Proof.RowDots
import Idealize.ShloMosaic.Lib.StableHlo.Run

noncomputable section

namespace Cert.KernelIdeal.Tiles

open Cert.KernelIdeal Cert.KernelIdeal.Gen Cert.KernelIdeal.Value
open Idealize.ShloMosaic Idealize.ShloMosaic.TcCoe Idealize.SL.Sem Idealize.ShloMosaic.ValueIdx Idealize.ShloMosaic.StableHlo
open Idealize.ShloMosaic.Pipeline (Dat)
open Cert.TileSum (col col_val)
open Cert.RowDots (dot G)

variable (m : (ℓ : Loc nD τ sig) → Buf (Elt Ideal) ℓ) (ρ : Dev nD → PrngReg)

/-- The two argument arrays as launched. -/
abbrev xarr (c : Dev nD) : Vec Ideal S4096x4096 .f32 := m ((c : Thread nD τ).loc main_arg0)
abbrev warr (c : Dev nD) : Vec Ideal S4096x4096 .f32 := m ((c : Thread nD τ).loc main_arg1)

/-- The two input blocks of a grid point. -/
abbrev xblk (c : Dev nD) (t : Fin cfg0.N) : Vec Ideal S1024x4096 .bf16 := iblk m c 0 t
abbrev wblk (c : Dev nD) (t : Fin cfg0.N) : Vec Ideal S1024x4096 .bf16 := iblk m c 1 t

/-- The scale the kernel multiplies by, as an extended real. -/
abbrev scale : EReal := Ideal.ofBits .f32 0x3F800000#32

theorem lt16 (t : Fin cfg0.N) : t.val < 16 := lt_of_lt_of_eq t.isLt N_0

/-! ### Which blocks a point works on -/

/-- Point t = 4 q + s reads row tile q of the first operand, row tile s of the second, and (when it
    writes) writes row tile q of the result; none of the windows moves along the second axis. -/
theorem index_facts : ∀ t : Fin cfg0.N, win0_0.index t (0 : Fin 2) = t.val / 4 ∧ win0_0.index t (1 : Fin 2) = 0
    ∧ win0_1.index t (0 : Fin 2) = t.val % 4 ∧ win0_1.index t (1 : Fin 2) = 0
    ∧ win0_2.index t (0 : Fin 2) = t.val / 4 ∧ win0_2.index t (1 : Fin 2) = 0 :=
  (by decide +kernel : ∀ t : Fin grid0.N, _)

/-- The arrays the kernel's windows read are the arguments themselves: the change of float format
    before the call is the identity on the extended reals. -/
theorem V_x (c : Dev nD) : (V m c main_v0 : Vec Ideal S4096x4096 .bf16) = xarr m c := by
  dsimp only [Gen.V, Gen.hostOps0]; after_results; rfl
theorem V_w (c : Dev nD) : (V m c main_v1 : Vec Ideal S4096x4096 .bf16) = warr m c := by
  dsimp only [Gen.V, Gen.hostOps0]; after_results; rfl

/-- Entry (p, k) of the first input block at a point of row tile q is entry (1024 q + p, k) of `x`. -/
theorem xblk_apply (c : Dev nD) (t : Fin cfg0.N) (q : Fin 4) (hq : q.val = t.val / 4) (p : Fin 1024) (k : Fin 4096) :
    xblk m c t (ix2 p k) = xarr m c (ix2 (col q p) k) := by
  show iblk m c 0 t (ix2 p k) = _
  unfold iblk
  rw [View.read_apply]
  show V m c main_v0 (((cfg0.win 0).blk t).view.emb (ix2 p k)) = _
  rw [V_x]
  refine congrArg (xarr m c) (funext fun a => Fin.ext ?_)
  obtain ⟨e0, e1, -⟩ := index_facts t
  match a with
  | ⟨0, _⟩ => show win0_0.index t (0 : Fin 2) * 1024 + 1 * p.val = 1024 * q.val + p.val; rw [e0, hq]; omega
  | ⟨1, _⟩ => show win0_0.index t (1 : Fin 2) * 4096 + 1 * k.val = k.val; rw [e1]; omega

/-- Entry (j, k) of the second input block at a point of column tile s is entry (1024 s + j, k) of `w`. -/
theorem wblk_apply (c : Dev nD) (t : Fin cfg0.N) (s : Fin 4) (hs : s.val = t.val % 4) (j : Fin 1024) (k : Fin 4096) :
    wblk m c t (ix2 j k) = warr m c (ix2 (col s j) k) := by
  show iblk m c 1 t (ix2 j k) = _
  unfold iblk
  rw [View.read_apply]
  show V m c main_v1 (((cfg0.win 1).blk t).view.emb (ix2 j k)) = _
  rw [V_w]
  refine congrArg (warr m c) (funext fun a => Fin.ext ?_)
  obtain ⟨-, -, e0, e1, -⟩ := index_facts t
  match a with
  | ⟨0, _⟩ => show win0_1.index t (0 : Fin 2) * 1024 + 1 * j.val = 1024 * s.val + j.val; rw [e0, hs]; omega
  | ⟨1, _⟩ => show win0_1.index t (1 : Fin 2) * 4096 + 1 * k.val = k.val; rw [e1]; omega

/-! ### The scratch column, point by point -/

/-- At the first point of a row of the grid the column is cleared and gains that point's row sums. -/
theorem scAt_reset (c : Dev nD) (n : ℕ) (hb : n < cfg0.N) (h0 : n % 4 = 0) (acc : Vec Ideal S1024x1 .f32) :
    scAt0_0 m c n hb acc = k0_pay2 (xblk m c ⟨n, hb⟩) (wblk m c ⟨n, hb⟩) (k0_pay1 (F := Ideal)) := by
  have h1 : ¬n % 4 = 3 := by omega
  unfold scAt0_0
  rw [dif_pos h0, dif_neg h1]
  exact scratch_A c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) scM0_0 (Memref.isWhole_whole _) _ _ (iblk m c 0 ⟨n, hb⟩) (iblk m c 1 ⟨n, hb⟩)

/-- At every other point it gains that point's row sums over what the point before left. -/
theorem scAt_step (c : Dev nD) (n : ℕ) (hb : n < cfg0.N) (h0 : ¬n % 4 = 0) (acc : Vec Ideal S1024x1 .f32) :
    scAt0_0 m c n hb acc = k0_pay2 (xblk m c ⟨n, hb⟩) (wblk m c ⟨n, hb⟩) acc := by
  unfold scAt0_0
  rw [dif_neg h0]
  by_cases h1 : n % 4 = 3
  · rw [dif_pos h1]
    exact scratch_C c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) scM0_0 (Memref.isWhole_whole _) _ _ (iblk m c 0 ⟨n, hb⟩) (iblk m c 1 ⟨n, hb⟩) acc
  · rw [dif_neg h1]
    exact scratch_B c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) scM0_0 (Memref.isWhole_whole _) _ _ (iblk m c 0 ⟨n, hb⟩) (iblk m c 1 ⟨n, hb⟩) acc

/-- What point n adds to the scratch column: at row p the sum, over the 1024 rows j of its block of
    `w`, of the dot product of row p of its block of `x` with row j. (Zero past the grid, where no point is.) -/
def addend (c : Dev nD) (n : ℕ) : S1024x1.Idx → EReal := fun i =>
  if h : n < cfg0.N then ∑ j : Fin 1024, ∑ k : Fin 4096, xblk m c ⟨n, h⟩ (ix2 (i 0) k) * wblk m c ⟨n, h⟩ (ix2 j k) else 0

theorem addend_of_lt (c : Dev nD) (n : ℕ) (h : n < cfg0.N) (p : Fin 1024) (z : Fin 1) :
    addend m c n (ix2 p z) = ∑ j : Fin 1024, ∑ k : Fin 4096, xblk m c ⟨n, h⟩ (ix2 p k) * wblk m c ⟨n, h⟩ (ix2 j k) := by
  unfold addend; rw [dif_pos h]

/-- The fold over a run of four points, at an entry: zero plus the four points' addends. -/
theorem fold_apply (c : Dev nD) (b : ℕ) (hb4 : b % 4 = 0) (j : ℕ) (hj : j = 3) (h : b + j < cfg0.N) (i : S1024x1.Idx) :
    Pipeline.accAt (fun n h => scAt0_0 m c n h (VS0_0.read (Elt Ideal) VS0_0.junk)) (scAt0_0 m c) b j h i
      = 0 + ∑ s ∈ Finset.range 4, addend m c (b + s) i := by
  subst hj
  refine Pipeline.accAt_add_apply (fun n h => scAt0_0 m c n h (VS0_0.read (Elt Ideal) VS0_0.junk)) (scAt0_0 m c)
    (fun _ => (0 : EReal)) (addend m c) b 3 ?_ ?_ 3 le_rfl h i
  · intro hb i
    obtain ⟨p, z, rfl⟩ : ∃ (p : Fin 1024) (z : Fin 1), i = ix2 p z := ⟨i 0, i 1, eq_ix2 i⟩
    show scAt0_0 m c b hb _ (ix2 p z) = _
    rw [scAt_reset m c b hb hb4, step_apply, cleared_apply, addend_of_lt m c b hb]
  · intro n hn acc i h1 h2
    obtain ⟨p, z, rfl⟩ : ∃ (p : Fin 1024) (z : Fin 1), i = ix2 p z := ⟨i 0, i 1, eq_ix2 i⟩
    rw [scAt_step m c n hn (by omega), step_apply, addend_of_lt m c n hn]

/-- So after the last point of a row of the grid the scratch column holds, at each entry, zero plus the
    addends of the row's four points. -/
theorem scratch_at (c : Dev nD) (t : Fin cfg0.N) (h3 : t.val % 4 = 3) (i : S1024x1.Idx) :
    (outsAt0 m c t.val t.isLt).2 i = 0 + ∑ s ∈ Finset.range 4, addend m c (4 * (t.val / 4) + s) i := by
  rw [soutsAt0_0_eq m c t]
  exact fold_apply m c (4 * (t.val / 4)) (Nat.mul_mod_right 4 _) (t.val % 4) h3 _ i

/-- At such a point the output block is the new scratch column, scaled. -/
theorem out_at (c : Dev nD) (t : Fin cfg0.N) (h0 : ¬t.val % 4 = 0) (h1 : t.val % 4 = 3) :
    (outsAt0 m c t.val t.isLt).1 = k0_pay3 (F := Ideal) (outsAt0 m c t.val t.isLt).2 := by
  rw [outsAt0_C m c t h0 h1]
  dsimp only
  exact (out_C c (grid0.coords t) (ms0_0 t) (hs0_0 t) (ms0_1 t) (hs0_1 t) (ms0_2 t) (hs0_2 t) scM0_0 (Memref.isWhole_whole _) _ _ (iblk m c 0 t) (iblk m c 1 t) _).trans
    (congrArg (k0_pay3 (F := Ideal)) (scratch_C c (grid0.coords t) (ms0_0 t) (hs0_0 t) (ms0_1 t) (hs0_1 t) (ms0_2 t) (hs0_2 t) scM0_0 (Memref.isWhole_whole _) _ _ (iblk m c 0 t) (iblk m c 1 t) _).symm)

/-! ### The result array -/

/-- The function of the arguments the result array ends holding. -/
abbrev result (c : Dev nD) : Vec Ideal S4096x1 .f32 := G scale (xarr m c) (warr m c)

/-- The four addends of a row of the grid, at row p of the row tile q, add up to the sum over all 4096
    rows n of `w` of the dot product of row 1024 q + p of `x` with row n. -/
theorem addends_sum (c : Dev nD) (q : Fin 4) (p : Fin 1024) (z : Fin 1) :
    ∑ s ∈ Finset.range 4, addend m c (4 * q.val + s) (ix2 p z) = ∑ n : Fin 4096, dot (xarr m c) (warr m c) (col q p) n := by
  refine Cert.TileSum.sum_range_tiles (fun n => dot (xarr m c) (warr m c) (col q p) n) _ fun s => ?_
  have hN : 4 * q.val + s.val < cfg0.N := by rw [show cfg0.N = 16 from N_0]; omega
  rw [addend_of_lt m c _ hN]
  refine Finset.sum_congr rfl fun j _ => Finset.sum_congr rfl fun k _ => ?_
  rw [xblk_apply m c ⟨4 * q.val + s.val, hN⟩ q (by show q.val = (4 * q.val + s.val) / 4; omega) p k,
    wblk_apply m c ⟨4 * q.val + s.val, hN⟩ s (by show s.val = (4 * q.val + s.val) % 4; omega) j k]

/-- What a writing point writes back is its block of the result. -/
theorem flushed_eq (c : Dev nD) (t : Fin cfg0.N) (hf : (cfg0.win 2).flush t = true) :
    (dats m 0 c).flushed 2 t = ((cfg0.win 2).blk t).view.read (Elt Ideal) (result m c) := by
  have h1 : t.val % 4 = 3 := (flush0_2 t).mp hf
  have h0 : ¬t.val % 4 = 0 := by omega
  have ht := lt16 t
  rw [flushed2, out_at m c t h0 h1]
  funext y
  obtain ⟨p, z, rfl⟩ : ∃ (p : Fin 1024) (z : Fin 1), y = ix2 p z := ⟨y 0, y 1, eq_ix2 y⟩
  show k0_pay3 (F := Ideal) (outsAt0 m c t.val t.isLt).2 (ix2 p z) = result m c (((cfg0.win 2).blk t).view.emb (ix2 p z))
  rw [scaled_apply, scratch_at m c t h1, zero_add]
  have hq : t.val / 4 < 4 := by omega
  have e := addends_sum m c ⟨t.val / 4, hq⟩ p z
  rw [e]
  show _ = (∑ n : Fin 4096, dot (xarr m c) (warr m c) ((((cfg0.win 2).blk t).view.emb (ix2 p z)) 0) n) * scale
  have hrow : (((cfg0.win 2).blk t).view.emb (ix2 p z)) 0 = col ⟨t.val / 4, hq⟩ p := Fin.ext (by
    obtain ⟨-, -, -, -, e0, -⟩ := index_facts t
    show win0_2.index t (0 : Fin 2) * 1024 + 1 * p.val = 1024 * (t.val / 4) + p.val
    rw [e0]; omega)
  rw [hrow]

/-- An index of the result is in a point's block iff each coordinate is in the block's range. -/
theorem mem_blk (t : Fin cfg0.N) (i : S4096x1.Idx) :
    i ∈ ((cfg0.win 2).blk t).view.set ↔ ∀ a : Fin 2, win0_2.index t a * S1024x1.size a ≤ (i a).val ∧ (i a).val < win0_2.index t a * S1024x1.size a + S1024x1.size a := by
  show i ∈ ((View.whole main_v2).slice (win0_2.rect t)).set ↔ _
  rw [View.set_slice_whole, Rect.mem_set_unit]
  exact Iff.rfl

/-- Row r of the result is written by the last point of the grid row r / 1024. -/
theorem cover (i : S4096x1.Idx) : ∃ t : Fin cfg0.N, (cfg0.win 2).flush t = true ∧ i ∈ ((cfg0.win 2).blk t).view.set := by
  have hi0 : (i 0).val < 4096 := (i 0).isLt
  have hi1 : (i 1).val < 1 := (i 1).isLt
  have hN : 4 * ((i 0).val / 1024) + 3 < cfg0.N := by rw [show cfg0.N = 16 from N_0]; omega
  refine ⟨⟨4 * ((i 0).val / 1024) + 3, hN⟩, (flush0_2 _).mpr (by show (4 * ((i 0).val / 1024) + 3) % 4 = 3; omega), ?_⟩
  rw [mem_blk]
  obtain ⟨-, -, -, -, e0, e1⟩ := index_facts ⟨4 * ((i 0).val / 1024) + 3, hN⟩
  intro a
  match a with
  | ⟨0, _⟩ =>
    show win0_2.index _ (0 : Fin 2) * 1024 ≤ (i 0).val ∧ (i 0).val < win0_2.index _ (0 : Fin 2) * 1024 + 1024
    rw [e0]; show (4 * ((i 0).val / 1024) + 3) / 4 * 1024 ≤ (i 0).val ∧ (i 0).val < (4 * ((i 0).val / 1024) + 3) / 4 * 1024 + 1024
    omega
  | ⟨1, _⟩ =>
    show win0_2.index _ (1 : Fin 2) * 1 ≤ (i 1).val ∧ (i 1).val < win0_2.index _ (1 : Fin 2) * 1 + 1
    rw [e1]; omega

/-- The result array after the run. -/
theorem final (c : Dev nD) : (dats m 0 c).arrAt 2 cfg0.N = result m c :=
  (dats m 0 c).arrAt_eq_of_cover 2 (result m c) (flushed_eq m c) cover

/-- The kernel's run, read: the result array at the scaled row sums of x * w^T, the arguments unchanged. -/
theorem run : θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.KernelIdeal.Tiles

end
-- ==== Proof.RefRowSums.lean ====
/-
  The reference, at the extended reals, is the same function: the host's product x * w^T contracts the
  second axes of both operands, the host's sum over the second axis of that product starts from zero, the
  keepdims column has the sum of row b at (b, 0), and the last multiplication is by the same scale word.
-/
import proofs.«103372_j3556232922104_1_alg».proof.Proof.Gen.ReferenceIdeal.Read
import proofs.«103372_j3556232922104_1_alg».proof.Proof.RowDots

noncomputable section

namespace Cert.ReferenceIdeal.RowSums

open Cert.ReferenceIdeal Cert.ReferenceIdeal.Gen Cert.ReferenceIdeal.Read
open Idealize.ShloMosaic Idealize.ShloMosaic.ValueIdx
open Cert.RowDots (dot G)

/-- The left operand's index of the term (b, n; k) of the reference's double sum is (b, k) … -/
theorem lidx_eq (i : S4096x1.Idx) (n k : Fin 4096) :
    lidx_main_v0 (idx_main_v1 (idx_main_v2 i) n) k = ix2 (i 0) k :=
  funext fun a => Fin.ext (by match a with | ⟨0, _⟩ => rfl | ⟨1, _⟩ => rfl)

/-- … and the right operand's is (n, k). -/
theorem ridx_eq (i : S4096x1.Idx) (n k : Fin 4096) :
    ridx_main_v0 (idx_main_v1 (idx_main_v2 i) n) k = ix2 n k :=
  funext fun a => Fin.ext (by match a with | ⟨0, _⟩ => rfl | ⟨1, _⟩ => rfl)

/-- The reference's result is the scaled row sums of x * w^T. -/
theorem val_eq (x w : (⟨S4096x4096, .f32⟩ : BufTy).Contents (Elt Ideal)) :
    val_main_v4 (F := Ideal) x w = G (Ideal.ofBits .f32 0x3F800000#32) x w := by
  funext i
  rw [val_main_v4_apply, val_main_v2_apply, val_main_v1_apply, val_main_v3_apply, val_main_cst_0_apply, val_main_cst_apply]
  simp only [val_main_v0_apply, lidx_eq, ridx_eq]
  show (Ideal.ofBits .f32 0x00000000#32 + ∑ n : Fin 4096, ∑ k : Fin 4096, x (ix2 (i 0) k) * w (ix2 n k)) * Ideal.ofBits .f32 0x3F800000#32 = _
  rw [Ideal.ofBits_zero_f32, zero_add]
  rfl

end Cert.ReferenceIdeal.RowSums

end
-- ==== Proof.lean ====
/-
  The kernel computes  out[b] = ( sum_h sum_k x[b, k] * w[h, k] ) * scale  for x, w of shape [4096, 4096]:
  the row sums of the product x * w^T, scaled by 0.5 * 2.0 = 1.0. It tiles the 4096 rows of `x` and the 4096
  rows of `w` by 1024 on a 4 x 4 grid; along a row of the grid it accumulates, in a scratch column, the
  row sums of the 1024 x 1024 tile products, and after the fourth tile writes the column, scaled, to the
  result. The reference forms the whole 4096 x 4096 product, sums its rows at once and scales.

  Over the extended reals (where the change of float format before the call is the identity) both are the
  same function of the arguments: the kernel's column at row b is
      ((((0 + S_0) + S_1) + S_2) + S_3) * scale,   S_s = sum_{j < 1024} sum_k x[b, k] * w[1024 s + j, k],
  the reference's is  (0 + sum_{n < 4096} sum_k x[b, k] * w[n, k]) * scale,  and a sum over 4096 terms is
  the sum of its four runs of 1024 terms. Only commutativity and associativity of addition and 0 + a = a are
  used, which hold at the infinities too, so the precondition (finite inputs) is never opened. The same
  scale word multiplies both sides and is never evaluated.

  The frames of the two kernels and the run of the reference are the generated ones; `preserves` is trivial
  (the idealization rewrote nothing).
-/
import proofs.«103372_j3556232922104_1_alg».proof.Defs
import proofs.«103372_j3556232922104_1_alg».proof.Proof.Gen.Kernel
import proofs.«103372_j3556232922104_1_alg».proof.Proof.Gen.Kernel.Skeleton
import proofs.«103372_j3556232922104_1_alg».proof.Proof.Gen.Kernel.Launch
import proofs.«103372_j3556232922104_1_alg».proof.Proof.Gen.Kernel.Points
import proofs.«103372_j3556232922104_1_alg».proof.Proof.Gen.Kernel.Frame
import proofs.«103372_j3556232922104_1_alg».proof.Proof.Gen.KernelIdeal
import proofs.«103372_j3556232922104_1_alg».proof.Proof.Gen.KernelIdeal.Skeleton
import proofs.«103372_j3556232922104_1_alg».proof.Proof.Gen.KernelIdeal.Launch
import proofs.«103372_j3556232922104_1_alg».proof.Proof.Gen.KernelIdeal.Points
import proofs.«103372_j3556232922104_1_alg».proof.Proof.Gen.KernelIdeal.Frame
import proofs.«103372_j3556232922104_1_alg».proof.Proof.Gen.KernelIdeal.Value
import proofs.«103372_j3556232922104_1_alg».proof.Proof.Gen.ReferenceIdeal
import proofs.«103372_j3556232922104_1_alg».proof.Proof.Gen.ReferenceIdeal.Run
import proofs.«103372_j3556232922104_1_alg».proof.Proof.Gen.ReferenceIdeal.Read
import proofs.«103372_j3556232922104_1_alg».proof.Proof.Gen.Pre_finite_inputs
import proofs.«103372_j3556232922104_1_alg».proof.Proof.KernelValue
import proofs.«103372_j3556232922104_1_alg».proof.Proof.RefRowSums
import Idealize.ShloMosaic.Adequacy
import Idealize.ShloMosaic.Init

noncomputable section

namespace Cert.Proof

open Idealize.ShloMosaic Idealize.SL.Sem

/-- The word-level kernel runs, faults nowhere and leaves its arguments unchanged. -/
theorem frame_kernel : Cert.frame_Kernel := fun m ρ _ => Cert.Kernel.Gen.frame m ρ

/-- So does the kernel read at the extended reals. -/
theorem frame_kernelIdeal : Cert.frame_KernelIdeal := fun m ρ _ => Cert.KernelIdeal.Gen.frame m ρ

/-- The reference is a straight line of host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the scaled row sums of x * w^T of arguments that agree. -/
theorem algebraic : Cert.algebraic_KernelIdeal_ReferenceIdeal := by
  intro m ρ m' ρ' _ hagree
  refine ⟨fun c => Cert.KernelIdeal.Tiles.result m c, Cert.KernelIdeal.Tiles.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, Cert.ReferenceIdeal.RowSums.val_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
